-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100 : Shape := ⟨2, ![256, 100]⟩
abbrev S256x4096x100 : Shape := ⟨3, ![256, 4096, 100]⟩
abbrev S_ : Shape := ⟨0, ![]⟩

class Facts : Prop where
  bcast_S_S256x100 : S_.BroadcastsInDim S256x100 (![] : Fin 0 → Fin S256x100.rank)
  reducesTo_S256x100_S_d0_1 : S256x100.ReducesTo [0, 1] S_
  h_S_ : 0 < S_.numel
  bcast_S_S256x4096x100 : S_.BroadcastsInDim S256x4096x100 (![] : Fin 0 → Fin S256x4096x100.rank)
  reducesTo_S256x4096x100_S_d0_1_2 : S256x4096x100.ReducesTo [0, 1, 2] S_

variable [Facts]

def fn {F : FTy → Type} [FloatOps F] (main_arg0 : FVec F S256x100 .f32) (main_arg1 : FVec F S256x4096x100 .f32) (main_arg2 : FVec F S256x100 .f32) : IVec S_ 1 :=
  let main_v0 : FVec F S256x100 .f32 := Host.absf main_arg0
  let main_cst : FVec F S_ .f32 := constant S_ .f32 0x7F800000#32
  let main_v1 : FVec F S256x100 .f32 := broadcastInDim S256x100 ![] bcast_S_S256x100 main_cst
  let main_v2 : IVec S256x100 1 := cmpf .olt main_v0 main_v1
  let main_c : IVec S_ 1 := constantI S_ 1 1#1
  let main_v3 : IVec S_ 1 := (fun x v => Host.reduce IntOp.andi x v reducesTo_S256x100_S_d0_1 h_S_) main_v2 main_c
  let main_v4 : FVec F S256x4096x100 .f32 := Host.absf main_arg1
  let main_cst_0 : FVec F S_ .f32 := constant S_ .f32 0x7F800000#32
  let main_v5 : FVec F S256x4096x100 .f32 := broadcastInDim S256x4096x100 ![] bcast_S_S256x4096x100 main_cst_0
  let main_v6 : IVec S256x4096x100 1 := cmpf .olt main_v4 main_v5
  let main_c_1 : IVec S_ 1 := constantI S_ 1 1#1
  let main_v7 : IVec S_ 1 := (fun x v => Host.reduce IntOp.andi x v reducesTo_S256x4096x100_S_d0_1_2 h_S_) main_v6 main_c_1
  let main_v8 : IVec S_ 1 := andi main_v3 main_v7
  let main_v9 : FVec F S256x100 .f32 := Host.absf main_arg2
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  main_v13
-- ==== Kernel.lean ====
abbrev S256x100 : Shape := ⟨2, ![256, 100]⟩
abbrev S256x4096x100 : Shape := ⟨3, ![256, 4096, 100]⟩
abbrev S_ : Shape := ⟨0, ![]⟩
abbrev S256x1 : Shape := ⟨2, ![256, 1]⟩
abbrev S8x100 : Shape := ⟨2, ![8, 100]⟩
abbrev S8x1024x100 : Shape := ⟨3, ![8, 1024, 100]⟩
abbrev S8x1 : Shape := ⟨2, ![8, 1]⟩
abbrev S8x1x100 : Shape := ⟨3, ![8, 1, 100]⟩
abbrev S8x1024 : Shape := ⟨2, ![8, 1024]⟩
abbrev S8 : Shape := ⟨1, ![8]⟩

abbrev nBuf : Space → Nat
  | .hbm => 17
  | .vmem => 6
  | .smem => 0
  | _ => 0

abbrev bufTy : (tb : Table) → Fin (tcTables nBuf tb) → BufTy
  | .hbm, ⟨0, _⟩ => ⟨S256x100, .f32⟩
  | .hbm, ⟨1, _⟩ => ⟨S256x4096x100, .f32⟩
  | .hbm, ⟨2, _⟩ => ⟨S256x100, .f32⟩
  | .hbm, ⟨3, _⟩ => ⟨S256x100, .f32⟩
  | .hbm, ⟨4, _⟩ => ⟨S256x100, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S8x100, .f32⟩
  | .local _ .vmem, ⟨1, _⟩ => ⟨S8x100, .f32⟩
  | .local _ .vmem, ⟨2, _⟩ => ⟨S8x1024x100, .f32⟩
  | .local _ .vmem, ⟨3, _⟩ => ⟨S8x1024x100, .f32⟩
  | .local _ .vmem, ⟨4, _⟩ => ⟨S8x1, .f32⟩
  | .local _ .vmem, ⟨5, _⟩ => ⟨S8x1, .f32⟩
  | _, _ => ⟨S256x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S256x100_S_d0_1 : S256x100.ReducesTo [0, 1] S_
  h_S_ : 0 < S_.numel
  inb_S8x1_S8x1_0_0 : ∀ a, (![0, 0] : Fin 2 → Nat) a + S8x1.size a ≤ S8x1.size a
  h_S8x1 : 0 < S8x1.numel
  inb_S8x100_S8x100_0_0 : ∀ a, (![0, 0] : Fin 2 → Nat) a + S8x100.size a ≤ S8x100.size a
  h_S8x100 : 0 < S8x100.numel
  inb_S8x1024x100_S8x1024x100_0_0_0 : ∀ a, (![0, 0, 0] : Fin 3 → Nat) a + S8x1024x100.size a ≤ S8x1024x100.size a
  h_S8x1024x100 : 0 < S8x1024x100.numel
  shapeCasts_S8x100_S8x1x100 : S8x100.ShapeCasts S8x1x100
  broadcasts_S8x1x100_S8x1024x100 : S8x1x100.Broadcasts S8x1024x100
  reduces_S8x1024x100_S8x1024 : S8x1024x100.Reduces [2] S8x1024
  reduces_S8x1024_S8 : S8x1024.Reduces [1] S8
  shapeCasts_S8_S8x1 : S8.ShapeCasts S8x1
  shapeCasts_S8x1_S8x1 : S8x1.ShapeCasts S8x1
  reducesTo_S256x1_S_d0_1 : S256x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100.size a ≤ S256x100.size a
  hwx0_0 : ∀ i : grid0.Coords, EltTy.bits .f32 = 32 ∨ (Rect.block (s := S256x100) S8x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x100.size a ≤ S256x4096x100.size a
  hwx0_1 : ∀ i : grid0.Coords, EltTy.bits .f32 = 32 ∨ (Rect.block (s := S256x4096x100) S8x1024x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S256x1.size a
  hwx0_2 : ∀ i : grid0.Coords, EltTy.bits .f32 = 32 ∨ (Rect.block (s := S256x1) S8x1.size (cc0_transform_2 i) (hinb0_2 i)).WholeWords (EltTy.packing .f32)

variable [Facts₀]

abbrev win0_0 : Pipeline.Window sig grid0 :=
  Pipeline.Window.ofSpec (Memref.whole main_arg0) S8x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x100 : Shape := ⟨2, ![256, 100]⟩
abbrev S256x4096x100 : Shape := ⟨3, ![256, 4096, 100]⟩
abbrev S_ : Shape := ⟨0, ![]⟩
abbrev S256x1x100 : Shape := ⟨3, ![256, 1, 100]⟩
abbrev S256x4096 : Shape := ⟨2, ![256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S256x100, .f32⟩
  | .hbm, ⟨1, _⟩ => ⟨S256x4096x100, .f32⟩
  | .hbm, ⟨2, _⟩ => ⟨S256x100, .f32⟩
  | .hbm, ⟨3, _⟩ => ⟨S256x100, .f32⟩
  | .hbm, ⟨4, _⟩ => ⟨S256x100, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x1x100, .f32⟩
  | .hbm, ⟨10, _⟩ => ⟨S256x4096x100, .f32⟩
  | .hbm, ⟨11, _⟩ => ⟨S256x4096x100, .f32⟩
  | .hbm, ⟨12, _⟩ => ⟨S256x4096x100, .f32⟩
  | .hbm, ⟨13, _⟩ => ⟨S_, .f32⟩
  | .hbm, ⟨14, _⟩ => ⟨S256x4096, .f32⟩
  | .hbm, ⟨15, _⟩ => ⟨S_, .f32⟩
  | .hbm, ⟨16, _⟩ => ⟨S256x4096, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S_, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S256x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  reducesTo_S256x100_S_d0_1 : S256x100.ReducesTo [0, 1] S_
  h_S_ : 0 < S_.numel
  bcast_S256x100_S256x1x100_0_2 : S256x100.BroadcastsInDim S256x1x100 (![0, 2] : Fin 2 → Fin S256x1x100.rank)
  bcast_S256x1x100_S256x4096x100_0_1_2 : S256x1x100.BroadcastsInDim S256x4096x100 (![0, 1, 2] : Fin 3 → Fin S256x4096x100.rank)
  reducesTo_S256x4096x100_S256x4096_d2 : S256x4096x100.ReducesTo [2] S256x4096
  bcast_S_S256x4096 : S_.BroadcastsInDim S256x4096 (![] : Fin 0 → Fin S256x4096.rank)
  reducesTo_S256x4096_S_d0_1 : S256x4096.ReducesTo [0, 1] S_

variable [Facts₀]

class Facts : Prop extends Facts₀ where

variable [Facts]
-- ==== Proof.MarginSpec.lean ====
/-
  The margin loss both programs compute, as functions of the three arrays over the extended reals.

  For a positive row `u` and a negative row `v` of 100 features the hinge is
  `max (margin - (sum_d (u_d - v_d)^2) / 100) 0`, the three constants being the words both programs print.
  The second term of the loss is the sum of the hinge over all 256 x 4096 (row, negative) pairs, divided by 2^20.
  The kernel walks the 4096 negatives of a row in four tiles of 1024 and adds the tile sums; the reference sums the
  4096 at once. Addition on the extended reals is commutative and associative, so the two totals agree
  (`rowHinge_eq`, `total_eq`); no finiteness is needed.
-/
import Idealize.ShloMosaic.PureOps.Ideal.Laws
import Idealize.ShloMosaic.Lib.ValueIdx

noncomputable section

open scoped BigOperators

namespace Cert.Margin

open Idealize.ShloMosaic Idealize.ShloMosaic.ValueIdx

/-- The hinge of one pair of feature rows: `max (margin - (sum_d (u_d - v_d)^2) / 100) 0`. -/
def hingeRow (u v : Fin 100 → EReal) : EReal :=
  max (Ideal.ofBits .f32 0x3DCCCCCD#32
        - Ideal.div (∑ d : Fin 100, (u d - v d) * (u d - v d)) (Ideal.ofBits .f32 0x42C80000#32))
    (Ideal.ofBits .f32 0x00000000#32)

abbrev SPos : Shape := ⟨2, ![256, 100]⟩
abbrev SNeg : Shape := ⟨3, ![256, 4096, 100]⟩

/-- The hinge of row `b` against its negative `c`. -/
def hinge (pos : SPos.Idx → EReal) (neg : SNeg.Idx → EReal) (b : Fin 256) (c : Fin 4096) : EReal :=
  hingeRow (fun d => pos (ix2 b d)) (fun d => neg (ix3 b c d))

/-- Negative number `q` of the `k`-th tile of 1024 (read modulo 4096, so that it is defined for every `k`). -/
def tileCol (k : ℕ) (q : Fin 1024) : Fin 4096 := ⟨(1024 * k + q.val) % 4096, Nat.mod_lt _ (by norm_num)⟩

/-- The hinge of row `b` summed over the `k`-th tile of negatives. -/
def tileSum (pos : SPos.Idx → EReal) (neg : SNeg.Idx → EReal) (b : Fin 256) (k : ℕ) : EReal :=
  ∑ q : Fin 1024, hinge pos neg b (tileCol k q)

/-- The four tile sums of row `b` added up: what the kernel's result column holds at row `b`. -/
def rowHinge (pos : SPos.Idx → EReal) (neg : SNeg.Idx → EReal) (b : Fin 256) : EReal :=
  ∑ k ∈ Finset.range 4, tileSum pos neg b k

/-- The four tile sums of a row are the sum over its 4096 negatives: (k, q) ↦ 1024 k + q is a bijection of
    Fin 4 × Fin 1024 with Fin 4096. -/
theorem rowHinge_eq (pos : SPos.Idx → EReal) (neg : SNeg.Idx → EReal) (b : Fin 256) :
    rowHinge pos neg b = ∑ c : Fin 4096, hinge pos neg b c := by
  unfold rowHinge tileSum
  rw [← Fin.sum_univ_eq_sum_range (fun k => ∑ q : Fin 1024, hinge pos neg b (tileCol k q)) 4]
  have e : ∑ c : Fin 4096, hinge pos neg b c
      = ∑ x : Fin 4 × Fin 1024, hinge pos neg b ((finProdFinEquiv : Fin 4 × Fin 1024 ≃ Fin (4 * 1024)) x) :=
    (Equiv.sum_comp (finProdFinEquiv : Fin 4 × Fin 1024 ≃ Fin (4 * 1024)) (fun c => hinge pos neg b c)).symm
  rw [e, Fintype.sum_prod_type]
  refine Finset.sum_congr rfl fun a _ => Finset.sum_congr rfl fun q _ => ?_
  congr 1
  apply Fin.ext
  have ha := a.isLt
  have hq := q.isLt
  show (1024 * a.val + q.val) % 4096 = q.val + 1024 * a.val
  omega

/-- The two programs' last sums agree: a [256,1] column holding the row totals and a [256,4096] array holding the
    hinges have the same total. -/
theorem total_eq (pos : SPos.Idx → EReal) (neg : SNeg.Idx → EReal)
    (Xk : (⟨2, ![256, 1]⟩ : Shape).Idx → EReal) (Xr : (⟨2, ![256, 4096]⟩ : Shape).Idx → EReal)
    (hk : ∀ (b : Fin 256) (z : Fin 1), Xk (ix2 b z) = rowHinge pos neg b)
    (hr : ∀ (b : Fin 256) (c : Fin 4096), Xr (ix2 b c) = hinge pos neg b c) :
    ∑ i, Xk i = ∑ i, Xr i := by
  rw [sum_idx2, sum_idx2]
  refine Finset.sum_congr rfl fun b _ => ?_
  rw [Fin.sum_univ_one, hk, rowHinge_eq]
  exact Finset.sum_congr rfl fun c _ => (hr b c).symm

end Cert.Margin

end
-- ==== Proof.MarginRef.lean ====
/-
  The reference's stages read at an index: the array it sums last holds, at (b, c), the hinge of row `b` against
  its negative `c` — the positive row repeated along the negatives, the difference squared, summed over the 100
  features from zero, divided by 100, subtracted from the margin, and cut at zero.
-/
import proofs.«111502_j6786048328134_1_alg».proof.Proof.Gen.ReferenceIdeal.Read
import proofs.«111502_j6786048328134_1_alg».proof.Proof.MarginSpec
import Idealize.ShloMosaic.PureOps.Ideal.Laws

noncomputable section

open scoped BigOperators

namespace Cert.ReferenceIdeal.MarginRef

open Cert.ReferenceIdeal Cert.ReferenceIdeal.Read Cert.Margin
open Idealize.ShloMosaic Idealize.ShloMosaic.ValueIdx

/-- The squared differences summed over the features, at (b, c). -/
theorem sqSum_apply (x0 : (⟨S256x100, .f32⟩ : BufTy).Contents (Elt Ideal)) (x1 : (⟨S256x4096x100, .f32⟩ : BufTy).Contents (Elt Ideal))
    (b : Fin 256) (c : Fin 4096) :
    ∑ k : Fin 100, val_main_v7 (F := Ideal) x0 x1 (idx_main_v8 (ix2 b c) k)
      = ∑ d : Fin 100, (x0 (ix2 b d) - x1 (ix3 b c d)) * (x0 (ix2 b d) - x1 (ix3 b c d)) := by
  refine Finset.sum_congr rfl fun k _ => ?_
  have e0 : idx_main_v4 (idx_main_v5 (idx_main_v8 (ix2 b c) k)) = ix2 b k :=
    funext fun a => by match a with | ⟨0, _⟩ => rfl | ⟨1, _⟩ => rfl
  have e1 : idx_main_v8 (ix2 b c) k = ix3 b c k :=
    funext fun a => by match a with | ⟨0, _⟩ => rfl | ⟨1, _⟩ => rfl | ⟨2, _⟩ => rfl
  rw [val_main_v7_apply, val_main_v6_apply, val_main_v5_apply, val_main_v4_apply, e0, e1]
  rfl

/-- The array the reference sums last is the hinge, pair by pair. -/
theorem relu_apply (x0 : (⟨S256x100, .f32⟩ : BufTy).Contents (Elt Ideal)) (x1 : (⟨S256x4096x100, .f32⟩ : BufTy).Contents (Elt Ideal))
    (b : Fin 256) (c : Fin 4096) :
    val_main_v13 (F := Ideal) x0 x1 (ix2 b c) = hinge x0 x1 b c := by
  rw [val_main_v13_apply, val_main_v12_apply, val_main_v11_apply, val_main_cst_3_apply, val_main_v10_apply,
    val_main_v9_apply, val_main_cst_2_apply, val_main_v8_apply, val_main_cst_1_apply, val_main_call0_v0_apply,
    val_main_call0_cst_apply, sqSum_apply]
  unfold hinge hingeRow
  simp only [Ideal.maximumf_def, Ideal.subf_def, Ideal.hostDivf_def, Ideal.ofBits_def, Ideal.ofBits_zero_f32, zero_add]

end Cert.ReferenceIdeal.MarginRef

end
-- ==== Proof.MarginBody.lean ====
/-
  The kernel body's one payload, read at a row.

  At a grid point the body holds a block `x0` of 8 positive rows, a block `x1` of 8 x 1024 negative rows and the
  running column `xo` of 8 partial totals. It stores `xo + s`, where `s` at row `p` is the sum over the 1024
  negatives `q` of the tile of the hinge of row `p` of `x0` against row `(p, q)` of `x1`: the feature sum is a lane
  reduction over the last axis, the division, subtraction and maximum are pointwise, the tile sum a lane reduction
  over the middle axis, and the result is laid out as a column.
-/
import proofs.«111502_j6786048328134_1_alg».proof.Proof.Gen.KernelIdeal.Skeleton
import proofs.«111502_j6786048328134_1_alg».proof.Proof.MarginSpec
import Idealize.ShloMosaic.Lib.Pipeline.Value
import Idealize.ShloMosaic.Lib.ValueLayout
import Idealize.ShloMosaic.PureOps.Ideal.Laws

noncomputable section

open scoped BigOperators

namespace Cert.KernelIdeal.MarginBody

open Cert.KernelIdeal Cert.KernelIdeal.Gen Cert.Margin
open Idealize.ShloMosaic Idealize.ShloMosaic.ValueIdx

/-- A vector of 8 laid out as an [8,1] column reads, at (p, 0), the vector at p. -/
theorem column_apply (v : FVec Ideal S8 .f32) (p : Fin 8) (z : Fin 1) :
    shapeCast S8x1 v shapeCasts_S8_S8x1 (ix2 p z) = v (ix1 p) :=
  shapeCast_apply v shapeCasts_S8_S8x1 (ix2 p z) (ix1 p) (by
    have hz : z.val = 0 := by omega
    rw [Shape.rowMajor_val_one, Shape.rowMajor_val_two]
    show p.val = p.val * 1 + z.val
    omega)

/-- A block of 8 positive rows, given a unit middle axis and repeated along 1024 negatives, reads at (p, q, d) the
    block at (p, d). -/
theorem repeat_apply (x0 : FVec Ideal S8x100 .f32) (p : Fin 8) (q : Fin 1024) (d : Fin 100) :
    broadcastTo S8x1024x100 (shapeCast S8x1x100 x0 shapeCasts_S8x100_S8x1x100) broadcasts_S8x1x100_S8x1024x100 (ix3 p q d)
      = x0 (ix2 p d) := by
  refine (broadcastTo_apply _ broadcasts_S8x1x100_S8x1024x100 (ix3 p q d) (ix3 p (0 : Fin 1) d) ?_).trans ?_
  · intro a
    match a with
    | ⟨0, _⟩ => show p.val = if (8 : Nat) = 1 then 0 else p.val; rw [if_neg (by decide)]
    | ⟨1, _⟩ => show 0 = if (1 : Nat) = 1 then 0 else q.val; rw [if_pos rfl]
    | ⟨2, _⟩ => show d.val = if (100 : Nat) = 1 then 0 else d.val; rw [if_neg (by decide)]
  · exact shapeCast_apply x0 shapeCasts_S8x100_S8x1x100 (ix3 p (0 : Fin 1) d) (ix2 p d) (by
      rw [Shape.rowMajor_val_two, Shape.rowMajor_val_three]
      show p.val * 100 + d.val = (p.val * 1 + 0) * 100 + d.val
      omega)

/-- The lane sum over the 100 features, at (p, q): the sum over d of the operand at (p, q, d). -/
theorem featureSum_apply (v : FVec Ideal S8x1024x100 .f32) (h : S8x1024x100.Reduces [2] S8x1024) (hφ : FKind.Formats .f32)
    (hacc : (0x00000000#32 : BitVec 32) = FKind.add.neutral .f32 hφ) (p : Fin 8) (q : Fin 1024) :
    multiReduction .add [2] S8x1024 v 0x00000000#32 h hφ hacc (ix2 p q) = ∑ d : Fin 100, v (ix3 p q d) := by
  refine (Ideal.multiReduction_add_single v _ h hφ hacc (ix2 p q)).trans ?_
  refine Finset.sum_congr rfl fun d _ => congrArg v ?_
  funext a
  match a with
  | ⟨0, _⟩ => rfl
  | ⟨1, _⟩ => rfl
  | ⟨2, _⟩ => rfl

/-- The lane sum over the 1024 negatives of the tile, at p: the sum over q of the operand at (p, q). -/
theorem tileLaneSum_apply (v : FVec Ideal S8x1024 .f32) (h : S8x1024.Reduces [1] S8) (hφ : FKind.Formats .f32)
    (hacc : (0x00000000#32 : BitVec 32) = FKind.add.neutral .f32 hφ) (p : Fin 8) :
    multiReduction .add [1] S8 v 0x00000000#32 h hφ hacc (ix1 p) = ∑ q : Fin 1024, v (ix2 p q) := by
  refine (Ideal.multiReduction_add_single v _ h hφ hacc (ix1 p)).trans ?_
  refine Finset.sum_congr rfl fun q _ => congrArg v ?_
  funext a
  match a with
  | ⟨0, _⟩ => rfl
  | ⟨1, _⟩ => rfl

/-- THE PAYLOAD AT A ROW: the running total there plus the tile's sum of hinges of that row. -/
theorem pay2_apply (x0 : Vec Ideal S8x100 .f32) (x1 : Vec Ideal S8x1024x100 .f32) (xo : Vec Ideal S8x1 .f32)
    (p : Fin 8) (z : Fin 1) :
    k0_pay2 (F := Ideal) x0 x1 xo (ix2 p z)
      = xo (ix2 p z) + ∑ q : Fin 1024, hingeRow (fun d => x0 (ix2 p d)) (fun d => x1 (ix3 p q d)) := by
  unfold k0_pay2
  dsimp only
  refine (addf_apply _ _ _).trans ?_
  refine congrArg₂ (· + ·) ?_ ?_
  · exact congrFun (shapeCast_self xo _) _
  · refine (column_apply _ p z).trans ?_
    refine (tileLaneSum_apply _ _ _ _ p).trans ?_
    refine Finset.sum_congr rfl fun q _ => ?_
    unfold hingeRow
    refine congrArg (fun s => max (Ideal.ofBits .f32 0x3DCCCCCD#32 - Ideal.div s (Ideal.ofBits .f32 0x42C80000#32))
      (Ideal.ofBits .f32 0x00000000#32)) ?_
    refine (featureSum_apply _ _ _ _ p q).trans ?_
    refine Finset.sum_congr rfl fun d _ => ?_
    have e := (subf_apply (broadcastTo S8x1024x100 (shapeCast S8x1x100 x0 shapeCasts_S8x100_S8x1x100)
        broadcasts_S8x1x100_S8x1024x100) x1 (ix3 p q d)).trans
      (congrArg (· - x1 (ix3 p q d)) (repeat_apply x0 p q d))
    exact (mulf_apply _ _ _).trans (congrArg₂ (· * ·) e e)

/-- The same with the two blocks read off two arrays: when row `p` of the positive block is row `b p` of `pos` and
    row `(p, q)` of the negative block is row `(b p, tileCol k q)` of `neg`, the payload adds tile `k`'s sum of row
    `b p`. -/
theorem pay2_tile (pos : SPos.Idx → EReal) (neg : SNeg.Idx → EReal)
    (x0 : Vec Ideal S8x100 .f32) (x1 : Vec Ideal S8x1024x100 .f32) (xo : Vec Ideal S8x1 .f32)
    (b : Fin 8 → Fin 256) (k : ℕ)
    (h0 : ∀ (p : Fin 8) (d : Fin 100), x0 (ix2 p d) = pos (ix2 (b p) d))
    (h1 : ∀ (p : Fin 8) (q : Fin 1024) (d : Fin 100), x1 (ix3 p q d) = neg (ix3 (b p) (tileCol k q) d))
    (p : Fin 8) (z : Fin 1) :
    k0_pay2 (F := Ideal) x0 x1 xo (ix2 p z) = xo (ix2 p z) + tileSum pos neg (b p) k := by
  refine (pay2_apply x0 x1 xo p z).trans ?_
  refine congrArg (xo (ix2 p z) + ·) ?_
  unfold tileSum hinge
  refine Finset.sum_congr rfl fun q _ => ?_
  refine congrArg₂ hingeRow (funext fun d => h0 p d) (funext fun d => h1 p q d)

/-- The column of zeros the body stores at the first tile of a row block reads zero. -/
theorem pay1_apply (p : Fin 8) (z : Fin 1) : k0_pay1 (F := Ideal) (ix2 p z) = 0 :=
  Ideal.ofBits_zero_f32

end Cert.KernelIdeal.MarginBody

end
-- ==== Proof.MarginAcc.lean ====
/-
  What the kernel's result column holds after the run.

  The grid has 32 x 4 points; point `t` works on the block of 8 rows number `t / 4` and on the tile of 1024
  negatives number `t % 4`. At the first tile of a row block the body stores a zero column and adds the tile's sums
  to it; at the other three it adds them to what the point before left. So after point `t` row `p` of the staging
  column holds the sum of the tile sums `0 … t % 4` of array row `8 (t / 4) + p` (`acc_apply`, by induction on the
  point). The column is written back after the fourth tile, when it holds the row's total over all 4096 negatives;
  the 32 written blocks tile the [256,1] result, which therefore ends holding the row totals (`final_col`).
-/
import proofs.«111502_j6786048328134_1_alg».proof.Proof.Gen.KernelIdeal.Frame
import proofs.«111502_j6786048328134_1_alg».proof.Proof.MarginBody
import Idealize.ShloMosaic.Lib.Pipeline.Value
import Idealize.ShloMosaic.Lib.Tactic

noncomputable section

open scoped BigOperators

namespace Cert.KernelIdeal.MarginAcc

open Cert.KernelIdeal Cert.KernelIdeal.Gen Cert.Margin Cert.KernelIdeal.MarginBody
open Idealize.ShloMosaic Idealize.ShloMosaic.TcCoe Idealize.SL.Sem Idealize.ShloMosaic.Tactic Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the staging column -/

section Pieces

variable {F : FTy → Type} [FloatOps F]

/-- At a later tile of a row block the body leaves its payload of the two input blocks and of the column as it
    found it. -/
theorem out_B (c : Dev nD) (i : grid0.Coords) (a2 : Memref sig .tc .vmem S8x100 .f32) (h2 : a2.IsWhole)
    (a3 : Memref sig .tc .vmem S8x1024x100 .f32) (h3 : a3.IsWhole) (a4 : Memref sig .tc .vmem S8x1 .f32) (h4 : a4.IsWhole)
    (hc : ¬cond0_0 i) (x0 : Vec F S8x100 .f32) (x1 : Vec F S8x1024x100 .f32) (xo : Vec F S8x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S8x100) hz2,
    View.ld_unit_zero (S := S8x1024x100) hz3, View.ld_unit_zero (S := S8x1) hz2]

/-- At the first tile of a row block the body stores the zero column, reads it back, and leaves its payload of the two
    input blocks and of that zero column. -/
theorem out_A (c : Dev nD) (i : grid0.Coords) (a2 : Memref sig .tc .vmem S8x100 .f32) (h2 : a2.IsWhole)
    (a3 : Memref sig .tc .vmem S8x1024x100 .f32) (h3 : a3.IsWhole) (a4 : Memref sig .tc .vmem S8x1 .f32) (h4 : a4.IsWhole)
    (hc : cond0_0 i) (x0 : Vec F S8x100 .f32) (x1 : Vec F S8x1024x100 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x1) hz2]
  simp only [View.readAt_eq_ld, h2.read_unread, h3.read_unread, View.ld_unit_zero (S := S8x100) hz2,
    View.ld_unit_zero (S := S8x1024x100) hz3, View.readCov_unit_zero (S := S8x1) _ hz2]

end Pieces

/-! ## The blocks, read off the arrays -/

variable (m : (ℓ : Loc nD τ sig) → Buf (Elt Ideal) ℓ)

/-- The positive rows and the negative rows as the kernel is launched with them. -/
abbrev posArr (c : Dev nD) : SPos.Idx → EReal := m ((c : Thread nD τ).loc main_arg0)
abbrev negArr (c : Dev nD) : SNeg.Idx → EReal := m ((c : Thread nD τ).loc main_arg1)

/-- The array row that row `p` of the block at point `n` is: `8 (n / 4) + p` (read modulo 256, so that it is
    defined for every `n`). -/
def blkRow (n : ℕ) (p : Fin 8) : Fin 256 := ⟨(8 * (n / 4) + p.val) % 256, Nat.mod_lt _ (by norm_num)⟩

/-- The printed index maps over the grid: the row block is `t / 4`, the tile of negatives `t % 4`. -/
theorem idx_facts : ∀ t : Fin cfg0.N,
    win0_0.index t (0 : Fin 2) = t.val / 4 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 2) = t.val / 4 ∧ win0_2.index t (1 : Fin 2) = 0 :=
  (by decide +kernel : ∀ t : Fin grid0.N, _)

/-- The block of positive rows at point `t`, read at (p, d). -/
theorem posBlk_apply (c : Dev nD) (t : Fin cfg0.N) (p : Fin 8) (d : Fin 100) :
    (iblk m c 0 t : Vec Ideal S8x100 .f32) (ix2 p d) = posArr m c (ix2 (blkRow t.val p) d) := by
  obtain ⟨e0, e1, -⟩ := idx_facts t
  have hN : t.val < 128 := lt_of_lt_of_eq t.isLt N_0
  unfold iblk
  rw [View.read_apply]
  show V m c main_arg0 (((cfg0.win 0).blk t).view.emb (ix2 p d)) = _
  rw [V_main_arg0]
  refine congrArg (m ((c : Thread nD τ).loc main_arg0)) (funext fun a => Fin.ext ?_)
  match a with
  | ⟨0, _⟩ =>
    show win0_0.index t (0 : Fin 2) * 8 + 1 * p.val = (8 * (t.val / 4) + p.val) % 256
    rw [e0]; omega
  | ⟨1, _⟩ =>
    show win0_0.index t (1 : Fin 2) * 100 + 1 * d.val = d.val
    rw [e1]; omega

/-- The block of negative rows at point `t`, read at (p, q, d). -/
theorem negBlk_apply (c : Dev nD) (t : Fin cfg0.N) (p : Fin 8) (q : Fin 1024) (d : Fin 100) :
    (iblk m c 1 t : Vec Ideal S8x1024x100 .f32) (ix3 p q d)
      = negArr m c (ix3 (blkRow t.val p) (tileCol (t.val % 4) q) d) := by
  obtain ⟨-, -, e2, e3, e4, -⟩ := idx_facts t
  have hN : t.val < 128 := lt_of_lt_of_eq t.isLt N_0
  unfold iblk
  rw [View.read_apply]
  show V m c main_arg1 (((cfg0.win 1).blk t).view.emb (ix3 p q d)) = _
  rw [V_main_arg1]
  refine congrArg (m ((c : Thread nD τ).loc main_arg1)) (funext fun a => Fin.ext ?_)
  match a with
  | ⟨0, _⟩ =>
    show win0_1.index t (0 : Fin 3) * 8 + 1 * p.val = (8 * (t.val / 4) + p.val) % 256
    rw [e2]; omega
  | ⟨1, _⟩ =>
    show win0_1.index t (1 : Fin 3) * 1024 + 1 * q.val = (1024 * (t.val % 4) + q.val) % 4096
    rw [e3]; omega
  | ⟨2, _⟩ =>
    show win0_1.index t (2 : Fin 3) * 100 + 1 * d.val = d.val
    rw [e4]; omega

/-- The payload at point `t` over any column: it adds tile `t % 4`'s sum of the row. -/
theorem step_apply (c : Dev nD) (t : Fin cfg0.N) (xo : Vec Ideal S8x1 .f32) (p : Fin 8) (z : Fin 1) :
    k0_pay2 (F := Ideal) (iblk m c 0 t) (iblk m c 1 t) xo (ix2 p z)
      = xo (ix2 p z) + tileSum (posArr m c) (negArr m c) (blkRow t.val p) (t.val % 4) :=
  pay2_tile (posArr m c) (negArr m c) (iblk m c 0 t) (iblk m c 1 t) xo (blkRow t.val) (t.val % 4)
    (posBlk_apply m c t) (negBlk_apply m c t) p z

/-! ## The running column -/

/-- At the first tile of a row block the column is left at that tile's sums. -/
theorem first_apply (c : Dev nD) (t : Fin cfg0.N) (h0 : t.val % 4 = 0) (p : Fin 8) (z : Fin 1) :
    (outsAt0 m c t.val t.isLt : Vec Ideal S8x1 .f32) (ix2 p z)
      = tileSum (posArr m c) (negArr m c) (blkRow t.val p) (t.val % 4) := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (iblk m c 0 t) (iblk m c 1 t)) (ix2 p z)).trans ?_
  refine (step_apply m c t (k0_pay1 (F := Ideal)) p z).trans ?_
  rw [pay1_apply, zero_add]

/-- At a later tile the column is what the point before left plus that tile's sums. -/
theorem later_apply (c : Dev nD) (t : Fin cfg0.N) (h0 : ¬t.val % 4 = 0) (p : Fin 8) (z : Fin 1) :
    (outsAt0 m c t.val t.isLt : Vec Ideal S8x1 .f32) (ix2 p z)
      = (outsAt0 m c (t.val - 1) (Nat.lt_of_le_of_lt (Nat.sub_le _ _) t.isLt) : Vec Ideal S8x1 .f32) (ix2 p z)
        + tileSum (posArr m c) (negArr m c) (blkRow t.val p) (t.val % 4) := by
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix2 p z)).trans ?_
  exact step_apply m c t _ p z

/-- THE RUNNING COLUMN: after point `n`, row `p` holds the tile sums `0 … n % 4` of array row `8 (n / 4) + p`. -/
theorem acc_apply (c : Dev nD) : ∀ (n : ℕ) (h : n < cfg0.N) (p : Fin 8) (z : Fin 1),
    (outsAt0 m c n h : Vec Ideal S8x1 .f32) (ix2 p z)
      = ∑ k ∈ Finset.range (n % 4 + 1), tileSum (posArr m c) (negArr m c) (blkRow n p) k
  | 0, h, p, z => by
    refine (first_apply m c ⟨0, h⟩ rfl p z).trans ?_
    exact (Finset.sum_range_one _).symm
  | n + 1, h, p, z => by
    by_cases h0 : (n + 1) % 4 = 0
    · refine (first_apply m c ⟨n + 1, h⟩ h0 p z).trans ?_
      show tileSum _ _ (blkRow (n + 1) p) ((n + 1) % 4) = ∑ k ∈ Finset.range ((n + 1) % 4 + 1), _
      rw [h0]
      exact (Finset.sum_range_one _).symm
    · refine (later_apply m c ⟨n + 1, h⟩ h0 p z).trans ?_
      show (outsAt0 m c n (Nat.lt_of_succ_lt h) : Vec Ideal S8x1 .f32) (ix2 p z)
        + tileSum _ _ (blkRow (n + 1) p) ((n + 1) % 4) = _
      rw [acc_apply c n (Nat.lt_of_succ_lt h) p z]
      have er : blkRow (n + 1) p = blkRow n p :=
        Fin.ext (by show (8 * ((n + 1) / 4) + p.val) % 256 = (8 * (n / 4) + p.val) % 256; omega)
      have ek : (n + 1) % 4 = n % 4 + 1 := by omega
      rw [er, ek]
      exact (Finset.sum_range_succ _ _).symm

/-! ## The result column after the run -/

/-- The row of the [256,1] column an index names. -/
def rowOf (i : S256x1.Idx) : Fin 256 := ⟨(i 0).val, idx2_lt0 i⟩

/-- The result column: at row `b`, the hinge of `b` summed tile by tile over its negatives. -/
abbrev colG (c : Dev nD) : Buf (Elt Ideal) ((c : Thread nD τ).loc main_v4) :=
  fun i => rowHinge (posArr m c) (negArr m c) (rowOf i)

/-- What a writing point writes back is its block of the result column. -/
theorem flushed_eq (c : Dev nD) (t : Fin cfg0.N) (hf : (cfg0.win 2).flush t = true) :
    (dats m 0 c).flushed 2 t = ((cfg0.win 2).blk t).view.read (Elt Ideal) (colG m c) := by
  have h3 : t.val % 4 = 3 := (flush0_2 t).mp hf
  have hN : t.val < 128 := lt_of_lt_of_eq t.isLt N_0
  obtain ⟨-, -, -, -, -, e5, e6⟩ := idx_facts t
  show (cfg0.win 2).cut (grid0.coords t) ((dats m 0 c).after 2 t) = _
  rw [after0_2]
  refine funext fun (y : S8x1.Idx) => ?_
  obtain ⟨p, z, rfl⟩ : ∃ (p : Fin 8) (z : Fin 1), y = ix2 p z := ⟨y 0, y 1, eq_ix2 y⟩
  show (outsAt0 m c t.val t.isLt : Vec Ideal S8x1 .f32) (ix2 p z)
    = rowHinge (posArr m c) (negArr m c) (rowOf (((cfg0.win 2).blk t).view.emb (ix2 p z)))
  have er : rowOf (((cfg0.win 2).blk t).view.emb (ix2 p z)) = blkRow t.val p :=
    Fin.ext (by
      show win0_2.index t (0 : Fin 2) * 8 + 1 * p.val = (8 * (t.val / 4) + p.val) % 256
      rw [e5]; omega)
  rw [er, acc_apply m c t.val t.isLt p z, h3]
  rfl

/-- An index of the column is in point `t`'s block iff each coordinate is in the block's range. -/
theorem mem_blk (t : Fin cfg0.N) (i : S256x1.Idx) :
    i ∈ ((cfg0.win 2).blk t).view.set
      ↔ ∀ a : Fin 2, win0_2.index t a * S8x1.size a ≤ (i a).val ∧ (i a).val < win0_2.index t a * S8x1.size a + S8x1.size a := by
  show i ∈ ((View.whole main_v4).slice (win0_2.rect t)).set ↔ _
  rw [View.set_slice_whole, Rect.mem_set_unit]
  exact Iff.rfl

/-- Every row of the column is written back by the point at the fourth tile of its row block. -/
theorem covered (i : S256x1.Idx) :
    ∃ t : Fin cfg0.N, (cfg0.win 2).flush t = true ∧ i ∈ ((cfg0.win 2).blk t).view.set := by
  have hi0 : (i 0).val < 256 := idx2_lt0 i
  have hi1 : (i 1).val < 1 := idx2_lt1 i
  have hN : cfg0.N = 128 := N_0
  have hlt : 4 * ((i 0).val / 8) + 3 < cfg0.N := by rw [hN]; omega
  refine ⟨⟨4 * ((i 0).val / 8) + 3, hlt⟩, (flush0_2 _).mpr (by show (4 * ((i 0).val / 8) + 3) % 4 = 3; omega), ?_⟩
  obtain ⟨-, -, -, -, -, e5, e6⟩ := idx_facts ⟨4 * ((i 0).val / 8) + 3, hlt⟩
  rw [mem_blk]
  intro a
  match a with
  | ⟨0, _⟩ =>
    show win0_2.index ⟨4 * ((i 0).val / 8) + 3, hlt⟩ (0 : Fin 2) * 8 ≤ (i 0).val
      ∧ (i 0).val < win0_2.index ⟨4 * ((i 0).val / 8) + 3, hlt⟩ (0 : Fin 2) * 8 + 8
    rw [e5]
    show (4 * ((i 0).val / 8) + 3) / 4 * 8 ≤ (i 0).val ∧ (i 0).val < (4 * ((i 0).val / 8) + 3) / 4 * 8 + 8
    omega
  | ⟨1, _⟩ =>
    show win0_2.index ⟨4 * ((i 0).val / 8) + 3, hlt⟩ (1 : Fin 2) * 1 ≤ (i 1).val
      ∧ (i 1).val < win0_2.index ⟨4 * ((i 0).val / 8) + 3, hlt⟩ (1 : Fin 2) * 1 + 1
    rw [e6]
    omega

/-- THE RESULT COLUMN after the run holds the row totals. -/
theorem final_col (c : Dev nD) : (dats m 0 c).arrAt 2 cfg0.N = colG m c :=
  (dats m 0 c).arrAt_eq_of_cover 2 (colG m c) (flushed_eq m c) covered

end Cert.KernelIdeal.MarginAcc

end
-- ==== Proof.MarginRun.lean ====
/-
  The kernel program's run, read: its scalar result as a function of the three arrays.

  Before the region the host code computes the first loss term, the mean over 256 x 100 of the squared difference of
  the positive and the language rows. After the region it sums the result column, divides by 2^20, multiplies by the
  weight 1 and adds the first term. The result column after the run is the column of row totals of the hinge.
-/
import proofs.«111502_j6786048328134_1_alg».proof.Proof.MarginAcc
import Idealize.ShloMosaic.Lib.StableHlo.Run

noncomputable section

open scoped BigOperators

namespace Cert.KernelIdeal.MarginRun

open Cert.KernelIdeal Cert.KernelIdeal.Gen Cert.Margin Cert.KernelIdeal.MarginAcc
open Idealize.ShloMosaic Idealize.ShloMosaic.TcCoe Idealize.SL.Sem Idealize.ShloMosaic.Tactic Idealize.ShloMosaic.ValueIdx
open Idealize.ShloMosaic.StableHlo
open Idealize.ShloMosaic.Pipeline (Dat)

/-- The first loss term as the host code before the region computes it. -/
def meanSqTerm (a0 a2 : S256x100.Idx → EReal) : S_.Idx → EReal :=
  Host.divf (F := Ideal)
    (Host.reduceAdd (F := Ideal) (mulf (subf a0 a2) (subf a0 a2)) (constant (F := Ideal) S_ .f32 0x00000000#32)
      reducesTo_S256x100_S_d0_1 h_S_)
    (constant (F := Ideal) S_ .f32 0x46C80000#32)

/-- The loss from the first term's arrays and a [256,1] column of row totals, as the host code after the region
    computes it. -/
def lossOfColumn (a0 a2 : S256x100.Idx → EReal) (col : S256x1.Idx → EReal) : S_.Idx → EReal :=
  addf (meanSqTerm a0 a2)
    (mulf (constant (F := Ideal) S_ .f32 0x3F800000#32)
      (Host.divf (F := Ideal)
        (Host.reduceAdd (F := Ideal) col (constant (F := Ideal) S_ .f32 0x00000000#32) reducesTo_S256x1_S_d0_1 h_S_)
        (constant (F := Ideal) S_ .f32 0x49800000#32)))

variable (m : (ℓ : Loc nD τ sig) → Buf (Elt Ideal) ℓ) (ρ : Dev nD → PrngReg)

/-- The language rows as the kernel is launched with them. -/
abbrev lanArr (c : Dev nD) : S256x100.Idx → EReal := m ((c : Thread nD τ).loc main_arg2)

/-- The first loss term when the region is entered. -/
theorem V_main_v3 (c : Dev nD) : V m c main_v3 = meanSqTerm (posArr m c) (lanArr m c) := by
  show StableHlo.after hostOps0 (fun b => m (c, b)) (Proc.devRef .tc main_v3) = _
  after_results
  rfl

/-- The program's result after the lines that follow the region. -/
theorem result_eq (c : Dev nD) :
    Pipeline.afterTail₀ cfgs (dats m) 0 (V0 m) [hostOps1] c main_v8
      = lossOfColumn (posArr m c) (lanArr m c) (colG m c) := by
  have e3 : Pipeline.withArrays (cfgs 0).spec c (V0 m c) (fun w => (dats m 0 c).arrAt w (cfgs 0).N) (Proc.devRef .tc main_v3)
      = meanSqTerm (posArr m c) (lanArr m c) :=
    (Pipeline.withArrays_of_ne _ c (V0 m c) _ main_v3 (by exact (by decide : ∀ w, Pipeline.arrRef spec0 w ≠ main_v3))).trans
      (V_main_v3 m c)
  have e4 : Pipeline.withArrays (cfgs 0).spec c (V0 m c) (fun w => (dats m 0 c).arrAt w (cfgs 0).N) (Proc.devRef .tc main_v4)
      = colG m c :=
    (Pipeline.withArrays_arr spec0 launch0.win.arr_inj c _ _ 2).trans (final_col m c)
  unfold Pipeline.afterTail₀
  show StableHlo.after hostOps1 _ (Proc.devRef .tc main_v8) = _
  after_results
  rw [e3, e4]
  rfl

/-- THE RUN: every weakly fair execution ends with the result at the loss of the row totals, the arguments
    unchanged. -/
theorem run : θ_run defs (onTc (τ := τ) (main (F := Ideal))) ⟨m, fun _ => 0, ρ⟩ fun r => ∀ c : Dev nD,
      r.2.mem ((c.tc : Thread nD τ).loc main_v8) = lossOfColumn (posArr m c) (lanArr m c) (colG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-- The sum the host code takes of a column, at the ideal instance: zero plus the total. -/
theorem columnSum_apply (col : S256x1.Idx → EReal) (i : S_.Idx) :
    Host.reduceAdd (F := Ideal) col (constant (F := Ideal) S_ .f32 0x00000000#32) reducesTo_S256x1_S_d0_1 h_S_ i
      = Ideal.ofBits .f32 0x00000000#32 + ∑ j : S256x1.Idx, col j := by
  simp only [Host.reduceAdd, Ideal.hostReduceAdd_def]
  exact Ideal.hostReduceAdd_total reducesTo_S256x1_S_d0_1 (fun b => b.elim0) col _ i

end Cert.KernelIdeal.MarginRun

end
-- ==== Proof.MarginBridge.lean ====
/-
  The two programs' results are one function of the three arrays.

  Both add the same first term (the mean squared difference of the positive and the language rows: the same
  operations on the same words) to the weight 1 times a total divided by 2^20. The reference's total is zero plus the
  sum of the hinge over the 256 x 4096 pairs; the kernel's is zero plus the sum of a [256,1] column whose row `b` is
  the hinge of `b` summed tile by tile over its negatives. The two totals are equal on the extended reals, where
  addition is commutative and associative.
-/
import proofs.«111502_j6786048328134_1_alg».proof.Proof.MarginRef
import proofs.«111502_j6786048328134_1_alg».proof.Proof.MarginRun

noncomputable section

open scoped BigOperators

namespace Cert.Proof.MarginBridge

open Idealize.ShloMosaic Idealize.ShloMosaic.ValueIdx Cert.Margin
open Cert.ReferenceIdeal.Read Cert.KernelIdeal.MarginRun

/-- The first loss term is the same term in both programs. -/
theorem meanSq_eq (a0 a2 : SPos.Idx → EReal) :
    val_main_v3 (F := Ideal) a0 a2 = meanSqTerm a0 a2 := rfl

/-- The reference's result is the kernel program's function of the arrays and of any column holding the row totals. -/
theorem loss_eq (a0 : SPos.Idx → EReal) (a1 : SNeg.Idx → EReal) (a2 : SPos.Idx → EReal)
    (col : Cert.KernelIdeal.S256x1.Idx → EReal)
    (hcol : ∀ (b : Fin 256) (z : Fin 1), col (ix2 b z) = rowHinge a0 a1 b) :
    val_main_v17 (F := Ideal) a0 a1 a2 = lossOfColumn a0 a2 col := by
  funext i
  have hsum : val_main_v14 (F := Ideal) a0 a1 i
      = Host.reduceAdd (F := Ideal) col (constant (F := Ideal) Cert.KernelIdeal.S_ .f32 0x00000000#32)
          Cert.KernelIdeal.Gen.reducesTo_S256x1_S_d0_1 Cert.KernelIdeal.Gen.h_S_ i := by
    rw [val_main_v14_apply, columnSum_apply]
    refine congrArg₂ (· + ·) rfl ?_
    exact (total_eq a0 a1 col (val_main_v13 (F := Ideal) a0 a1) hcol
      (Cert.ReferenceIdeal.MarginRef.relu_apply a0 a1)).symm
  rw [val_main_v17_apply, val_main_v16_apply, val_main_v15_apply, hsum, meanSq_eq]
  rfl

end Cert.Proof.MarginBridge

end
-- ==== Proof.lean ====
/-
  The certificate of the margin loss kernel against its jnp reference.

  loss = mean over (b, d) of (pos - lan)^2  +  1 * (sum over (b, c) of max (0.1 - mean over d of (pos_b - neg_bc)^2) 0) / 2^20,
  all constants the same words in both programs. The kernel computes the second sum row block by row block and, inside
  a row block, tile by tile of 1024 negatives, accumulating into a resident [8,1] column; the reference sums the whole
  [256,4096] array at once. Over the extended reals the two groupings of the sum agree, so no finiteness of the inputs
  is used.

  The three frames: the kernel's two are its generated frame certificates; the reference's is its generated run with
  the result dropped. The ideal pass rewrote nothing, so the idealization claim is trivial. The value claim: the
  kernel program's run read off its frame run (the running column by induction on the grid point, the written
  blocks covering the result column, the host lines after the region), the reference's run read stage by stage, and
  the bridge between the two totals.
-/
import proofs.«111502_j6786048328134_1_alg».proof.Defs
import proofs.«111502_j6786048328134_1_alg».proof.Proof.Gen.Kernel
import proofs.«111502_j6786048328134_1_alg».proof.Proof.Gen.Kernel.Skeleton
import proofs.«111502_j6786048328134_1_alg».proof.Proof.Gen.Kernel.Launch
import proofs.«111502_j6786048328134_1_alg».proof.Proof.Gen.Kernel.Points
import proofs.«111502_j6786048328134_1_alg».proof.Proof.Gen.Kernel.Frame
import proofs.«111502_j6786048328134_1_alg».proof.Proof.Gen.KernelIdeal
import proofs.«111502_j6786048328134_1_alg».proof.Proof.Gen.KernelIdeal.Skeleton
import proofs.«111502_j6786048328134_1_alg».proof.Proof.Gen.KernelIdeal.Launch
import proofs.«111502_j6786048328134_1_alg».proof.Proof.Gen.KernelIdeal.Points
import proofs.«111502_j6786048328134_1_alg».proof.Proof.Gen.KernelIdeal.Frame
import proofs.«111502_j6786048328134_1_alg».proof.Proof.Gen.ReferenceIdeal
import proofs.«111502_j6786048328134_1_alg».proof.Proof.Gen.Pre_finite_inputs
import proofs.«111502_j6786048328134_1_alg».proof.Proof.Gen.ReferenceIdeal.Run
import proofs.«111502_j6786048328134_1_alg».proof.Proof.Gen.ReferenceIdeal.Read
import proofs.«111502_j6786048328134_1_alg».proof.Proof.MarginBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arrays both programs end at the loss of those arrays. -/
theorem algebraic : Cert.algebraic_KernelIdeal_ReferenceIdeal := by
  intro m ρ m' ρ' _ hagree
  refine ⟨fun c => Cert.KernelIdeal.MarginRun.lossOfColumn (Cert.KernelIdeal.MarginAcc.posArr m c)
      (Cert.KernelIdeal.MarginRun.lanArr m c) (Cert.KernelIdeal.MarginAcc.colG m c),
    Cert.KernelIdeal.MarginRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  exact Cert.Proof.MarginBridge.loss_eq _ _ _ _ (fun _ _ => rfl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
